-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x96x96x96 : Shape := ⟨5, ![16, 4, 96, 96, 96]⟩
abbrev S_ : Shape := ⟨0, ![]⟩

class Facts : Prop where
  bcast_S_S16x4x96x96x96 : S_.BroadcastsInDim S16x4x96x96x96 (![] : Fin 0 → Fin S16x4x96x96x96.rank)
  reducesTo_S16x4x96x96x96_S_d0_1_2_3_4 : S16x4x96x96x96.ReducesTo [0, 1, 2, 3, 4] S_
  h_S_ : 0 < S_.numel

variable [Facts]

def fn {F : FTy → Type} [FloatOps F] (main_arg0 : FVec F S16x4x96x96x96 .f32) (main_arg1 : FVec F S16x4x96x96x96 .f32) : IVec S_ 1 :=
  let main_v0 : FVec F S16x4x96x96x96 .f32 := Host.absf main_arg0
  let main_cst : FVec F S_ .f32 := constant S_ .f32 0x7F800000#32
  let main_v1 : FVec F S16x4x96x96x96 .f32 := broadcastInDim S16x4x96x96x96 ![] bcast_S_S16x4x96x96x96 main_cst
  let main_v2 : IVec S16x4x96x96x96 1 := cmpf .olt main_v0 main_v1
  let main_c : IVec S_ 1 := constantI S_ 1 1#1
  let main_v3 : IVec S_ 1 := (fun x v => Host.reduce IntOp.andi x v reducesTo_S16x4x96x96x96_S_d0_1_2_3_4 h_S_) main_v2 main_c
  let main_v4 : FVec F S16x4x96x96x96 .f32 := Host.absf main_arg1
  let main_cst_0 : FVec F S_ .f32 := constant S_ .f32 0x7F800000#32
  let main_v5 : FVec F S16x4x96x96x96 .f32 := broadcastInDim S16x4x96x96x96 ![] bcast_S_S16x4x96x96x96 main_cst_0
  let main_v6 : IVec S16x4x96x96x96 1 := cmpf .olt main_v4 main_v5
  let main_c_1 : IVec S_ 1 := constantI S_ 1 1#1
  let main_v7 : IVec S_ 1 := (fun x v => Host.reduce IntOp.andi x v reducesTo_S16x4x96x96x96_S_d0_1_2_3_4 h_S_) main_v6 main_c_1
  let main_v8 : IVec S_ 1 := andi main_v3 main_v7
  main_v8
-- ==== Kernel.lean ====
abbrev S16x4x96x96x96 : Shape := ⟨5, ![16, 4, 96, 96, 96]⟩
abbrev S64x9216x96 : Shape := ⟨3, ![64, 9216, 96]⟩
abbrev S2x1x96 : Shape := ⟨3, ![2, 1, 96]⟩
abbrev S2x9216x96 : Shape := ⟨3, ![2, 9216, 96]⟩
abbrev S1x1x96 : Shape := ⟨3, ![1, 1, 96]⟩
abbrev S1x96 : Shape := ⟨2, ![1, 96]⟩
abbrev S2x96 : Shape := ⟨2, ![2, 96]⟩
abbrev S2 : Shape := ⟨1, ![2]⟩
abbrev S2x1 : Shape := ⟨2, ![2, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S16x4x96x96x96, .f32⟩
  | .hbm, ⟨1, _⟩ => ⟨S16x4x96x96x96, .f32⟩
  | .hbm, ⟨2, _⟩ => ⟨S64x9216x96, .f32⟩
  | .hbm, ⟨3, _⟩ => ⟨S64x9216x96, .f32⟩
  | .hbm, ⟨4, _⟩ => ⟨S2x1x96, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S1, .f32⟩
  | .local _ .vmem, ⟨0, _⟩ => ⟨S2x9216x96, .f32⟩
  | .local _ .vmem, ⟨1, _⟩ => ⟨S2x9216x96, .f32⟩
  | .local _ .vmem, ⟨2, _⟩ => ⟨S2x9216x96, .f32⟩
  | .local _ .vmem, ⟨3, _⟩ => ⟨S2x9216x96, .f32⟩
  | .local _ .vmem, ⟨4, _⟩ => ⟨S1x1x96, .f32⟩
  | .local _ .vmem, ⟨5, _⟩ => ⟨S1x1x96, .f32⟩
  | .local _ .vmem, ⟨6, _⟩ => ⟨S1x96, .f32⟩
  | _, _ => ⟨S16x4x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x9216x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x9216x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x4x96x96x96_S64x9216x96 : S16x4x96x96x96.ShapeCasts S64x9216x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  inb_S2x9216x96_S2x9216x96_0_0_0 : ∀ a, (![0, 0, 0] : Fin 3 → Nat) a + S2x9216x96.size a ≤ S2x9216x96.size a
  h_S2x9216x96 : 0 < S2x9216x96.numel
  shapeCasts_S2x9216x96_S2x9216x96 : S2x9216x96.ShapeCasts S2x9216x96
  reduces_S2x9216x96_S2x96 : S2x9216x96.Reduces [1] S2x96
  reduces_S2x96_S2 : S2x96.Reduces [1] S2
  shapeCasts_S2_S2x1 : S2.ShapeCasts S2x1
  reduces_S2x1_S1 : S2x1.Reduces [0] S1
  shapeCasts_S1_S1x1 : S1.ShapeCasts S1x1
  shapeCasts_S1x1_S1x1 : S1x1.ShapeCasts S1x1
  broadcasts_S1x1_S1x96 : S1x1.Broadcasts S1x96
  shapeCasts_S1x96_S1x1x96 : S1x96.ShapeCasts S1x1x96
  inb_S1x1x96_S1x1x96_0_0_0 : ∀ a, (![0, 0, 0] : Fin 3 → Nat) a + S1x1x96.size a ≤ S1x1x96.size a
  h_S1x1x96 : 0 < S1x1x96.numel
  slices_S2x1x96_S1x1x1_0_0_0 : S2x1x96.Slices ![0, 0, 0] S1x1x1
  shapeCasts_S1x1x1_S_ : S1x1x1.ShapeCasts S_
  slices_S2x1x96_S1x1x1_1_0_0 : S2x1x96.Slices ![1, 0, 0] S1x1x1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x9216x96.size a ≤ S64x9216x96.size a
  hwx0_0 : ∀ i : grid0.Coords, EltTy.bits .f32 = 32 ∨ (Rect.block (s := S64x9216x96) S2x9216x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x9216x96.size a ≤ S64x9216x96.size a
  hwx0_1 : ∀ i : grid0.Coords, EltTy.bits .f32 = 32 ∨ (Rect.block (s := S64x9216x96) S2x9216x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x96.size a ≤ S2x1x96.size a
  hwx0_2 : ∀ i : grid0.Coords, EltTy.bits .f32 = 32 ∨ (Rect.block (s := S2x1x96) S1x1x96.size (cc0_transform_2 i) (hinb0_2 i)).WholeWords (EltTy.packing .f32)

variable [Facts₀]

abbrev win0_0 : Pipeline.Window sig grid0 :=
  Pipeline.Window.ofSpec (Memref.whole main_v0) S2x9216x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x9216x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x4x96x96x96 : Shape := ⟨5, ![16, 4, 96, 96, 96]⟩
abbrev S_ : Shape := ⟨0, ![]⟩
abbrev S16x4 : Shape := ⟨2, ![16, 4]⟩
abbrev S1 : Shape := ⟨1, ![1]⟩

abbrev nBuf : Space → Nat
  | .hbm => 24
  | .vmem => 0
  | .smem => 0
  | _ => 0

abbrev bufTy : (tb : Table) → Fin (tcTables nBuf tb) → BufTy
  | .hbm, ⟨0, _⟩ => ⟨S16x4x96x96x96, .f32⟩
  | .hbm, ⟨1, _⟩ => ⟨S16x4x96x96x96, .f32⟩
  | .hbm, ⟨2, _⟩ => ⟨S16x4x96x96x96, .f32⟩
  | .hbm, ⟨3, _⟩ => ⟨S16x4x96x96x96, .f32⟩
  | .hbm, ⟨4, _⟩ => ⟨S_, .f32⟩
  | .hbm, ⟨5, _⟩ => ⟨S16x4, .f32⟩
  | .hbm, ⟨6, _⟩ => ⟨S_, .f32⟩
  | .hbm, ⟨7, _⟩ => ⟨S16x4, .f32⟩
  | .hbm, ⟨8, _⟩ => ⟨S16x4, .f32⟩
  | .hbm, ⟨9, _⟩ => ⟨S16x4x96x96x96, .f32⟩
  | .hbm, ⟨10, _⟩ => ⟨S_, .f32⟩
  | .hbm, ⟨11, _⟩ => ⟨S16x4, .f32⟩
  | .hbm, ⟨12, _⟩ => ⟨S_, .f32⟩
  | .hbm, ⟨13, _⟩ => ⟨S16x4, .f32⟩
  | .hbm, ⟨14, _⟩ => ⟨S16x4, .f32⟩
  | .hbm, ⟨15, _⟩ => ⟨S_, .f32⟩
  | .hbm, ⟨16, _⟩ => ⟨S16x4, .f32⟩
  | .hbm, ⟨17, _⟩ => ⟨S16x4, .f32⟩
  | .hbm, ⟨18, _⟩ => ⟨S16x4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | _, _ => ⟨S16x4x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S16x4x96x96x96_S16x4_d2_3_4 : S16x4x96x96x96.ReducesTo [2, 3, 4] S16x4
  h_S_ : 0 < S_.numel
  bcast_S_S16x4 : S_.BroadcastsInDim S16x4 (![] : Fin 0 → Fin S16x4.rank)
  reducesTo_S16x4_S_d0_1 : S16x4.ReducesTo [0, 1] S_
  shapeCasts_S_S1 : S_.ShapeCasts S1

variable [Facts₀]

class Facts : Prop extends Facts₀ where

variable [Facts]
-- ==== Proof.Spec.lean ====
/-
  The two values the certificate compares, as functions of the argument arrays X (input) and L (label), both of shape
  16 x 4 x 96 x 96 x 96, over the extended reals.

  For channel n = 4 b + ch (0 <= n < 64) write
      SSQ n = sum over the 96^3 spatial positions of (X - L)^2      SAB n = sum over them of |L|.
  The kernel walks the 64 x 9216 x 96 row-major view of the arrays, two channels per grid step, and returns
      (sum_{s<16} (SSQ(2s)/SAB(2s) + SSQ(2s+1)/SAB(2s+1))) * (1/64) + (the same sum over 16 <= s < 32) * (1/64);
  the reference returns
      (sum_{(b,ch)} (SSQ/N) / (4 * (SAB/N))) / 16,      N = 96^3 = 884736.
  On real entries both are sum_n SSQ n / SAB n * (1/64): for SAB n != 0 by field arithmetic; for SAB n = 0 both
  quotients are the infinity of SSQ n's sign (or the bottom element at 0/0), which a positive real factor fixes, and a
  positive real factor distributes over every sum of extended reals.
-/
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx

/-- The argument arrays' shape. -/
abbrev S5 : Shape := ⟨5, ![16, 4, 96, 96, 96]⟩

/-- Element (row r, lane l) of channel n in the 64 x 9216 x 96 row-major view, as an index of the 5-axis array:
    batch n / 4, channel n % 4, depth r / 96, height r % 96, width l. (Total in n and r: out-of-range values wrap.) -/
def cidx (n r : ℕ) (l : Fin 96) : S5.Idx :=
  ix5 (⟨n / 4 % 16, Nat.mod_lt _ (by norm_num)⟩ : Fin 16) (⟨n % 4, Nat.mod_lt _ (by norm_num)⟩ : Fin 4)
    (⟨r / 96 % 96, Nat.mod_lt _ (by norm_num)⟩ : Fin 96) (⟨r % 96, Nat.mod_lt _ (by norm_num)⟩ : Fin 96) l

/-- Channel n's sum of squared differences, lanes outermost as the kernel sums them. -/
def ssq (X L : S5.Idx → EReal) (n : ℕ) : EReal :=
  ∑ l : Fin 96, ∑ r : Fin 9216, (X (cidx n r l) - L (cidx n r l)) * (X (cidx n r l) - L (cidx n r l))

/-- Channel n's sum of absolute labels. -/
def sab (L : S5.Idx → EReal) (n : ℕ) : EReal :=
  ∑ l : Fin 96, ∑ r : Fin 9216, max (L (cidx n r l)) (-(L (cidx n r l)))

/-- Channel n's quotient. -/
def ratio (X L : S5.Idx → EReal) (n : ℕ) : EReal := Ideal.div (ssq X L n) (sab L n)

/-- What grid step s (channels 2s and 2s+1) adds to the accumulator. -/
def step (X L : S5.Idx → EReal) (s : ℕ) : EReal := ratio X L (2 * s) + ratio X L (2 * s + 1)

/-- The accumulator of core c after its j+1 first steps. -/
def acc (X L : S5.Idx → EReal) (c j : ℕ) : EReal := ∑ s ∈ Finset.range (j + 1), step X L (16 * c + s)

/-- The kernel's result. -/
def kval (X L : S5.Idx → EReal) : EReal :=
  acc X L 0 15 * Ideal.ofBits .f32 0x3C800000#32 + acc X L 1 15 * Ideal.ofBits .f32 0x3C800000#32

/-- The reference's result. -/
def rval (X L : S5.Idx → EReal) : EReal :=
  Ideal.div
    (Ideal.ofBits .f32 0x00000000#32 + ∑ j : (⟨2, ![16, 4]⟩ : Shape).Idx,
      Ideal.div
        (Ideal.div (Ideal.ofBits .f32 0x00000000#32 + ssq X L (4 * (j 0).val + (j 1).val)) (Ideal.ofBits .f32 0x49580000#32))
        (Ideal.ofBits .f32 0x40800000#32
          * Ideal.div (Ideal.ofBits .f32 0x00000000#32 + sab L (4 * (j 0).val + (j 1).val)) (Ideal.ofBits .f32 0x49580000#32)))
    (Ideal.ofBits .f32 0x41800000#32)

end Cert.LossSpec

end
-- ==== Proof.Algebra.lean ====
/-
  The kernel's value and the reference's value are one extended real when every entry of the arrays is real.
-/
import proofs.«180223_g78099685310900_feedfinal_268_6_alg».proof.Proof.Spec

noncomputable section

namespace Cert.LossSpec

open Idealize.ShloMosaic Idealize.ShloMosaic.ValueIdx

/-! ## The float constants as extended reals -/

/-- 884736.0 = 96^3, the number of spatial positions. -/
private theorem ofBits_884736 : Ideal.ofBits .f32 0x49580000#32 = ((884736 : ℝ) : EReal) := by
  simp [Ideal.ofBits, Ideal.ieee, -EReal.coe_mul]; norm_num

/-- 4.0. -/
private theorem ofBits_4 : Ideal.ofBits .f32 0x40800000#32 = ((4 : ℝ) : EReal) := by
  simp [Ideal.ofBits, Ideal.ieee, -EReal.coe_mul]; norm_num

/-- 16.0. -/
private theorem ofBits_16 : Ideal.ofBits .f32 0x41800000#32 = ((16 : ℝ) : EReal) := by
  simp [Ideal.ofBits, Ideal.ieee, -EReal.coe_mul]; norm_num

/-- 0.015625 = 1/64. -/
private theorem ofBits_inv64 : Ideal.ofBits .f32 0x3C800000#32 = ((1 / 64 : ℝ) : EReal) := by
  simp [Ideal.ofBits, Ideal.ieee, -EReal.coe_mul]; norm_num

/-! ## Sums of reals are real -/

/-- A finite sum of extended reals each of which is a real is a real. -/
private theorem exists_coe_sum {ι : Type*} (s : Finset ι) (f : ι → EReal) (h : ∀ i, ∃ a : ℝ, f i = (a : EReal)) :
    ∃ a : ℝ, ∑ i ∈ s, f i = (a : EReal) := by
  classical
  induction s using Finset.induction_on with
  | empty => exact ⟨0, by simp⟩
  | insert i s hi ih =>
    obtain ⟨a, ha⟩ := ih
    obtain ⟨b, hb⟩ := h i
    exact ⟨b + a, by rw [Finset.sum_insert hi, ha, hb, EReal.coe_add]⟩

/-- The larger of a real and its negative is a real. -/
private theorem exists_coe_max_neg (l : ℝ) : ∃ c : ℝ, max (l : EReal) (-(l : EReal)) = (c : EReal) := by
  rcases le_total (l : EReal) (-(l : EReal)) with h | h
  · exact ⟨-l, by rw [max_eq_right h, EReal.coe_neg]⟩
  · exact ⟨l, max_eq_left h⟩

/-- On real entries a channel's sum of squared differences is a real. -/
private theorem ssq_real (X L : S5.Idx → EReal) (hX : ∀ i, ∃ x : ℝ, X i = (x : EReal))
    (hL : ∀ i, ∃ x : ℝ, L i = (x : EReal)) (n : ℕ) : ∃ a : ℝ, ssq X L n = (a : EReal) := by
  unfold ssq
  refine exists_coe_sum _ _ fun l => exists_coe_sum _ _ fun r => ?_
  obtain ⟨x, hx⟩ := hX (cidx n r l)
  obtain ⟨y, hy⟩ := hL (cidx n r l)
  exact ⟨(x - y) * (x - y), by rw [hx, hy, ← EReal.coe_sub, ← EReal.coe_mul]⟩

/-- On real entries a channel's sum of absolute labels is a real. -/
private theorem sab_real (L : S5.Idx → EReal) (hL : ∀ i, ∃ x : ℝ, L i = (x : EReal)) (n : ℕ) :
    ∃ b : ℝ, sab L n = (b : EReal) := by
  unfold sab
  refine exists_coe_sum _ _ fun l => exists_coe_sum _ _ fun r => ?_
  obtain ⟨y, hy⟩ := hL (cidx n r l)
  rw [hy]
  exact exists_coe_max_neg y

/-! ## One channel -/

/-- A quotient of reals with nonzero divisor. -/
private theorem div_coe_coe (u : ℝ) {v : ℝ} (hv : v ≠ 0) : Ideal.div (u : EReal) (v : EReal) = ((u / v : ℝ) : EReal) := by
  rw [Ideal.div_coe hv, ← EReal.coe_mul, mul_one_div]

/-- A quotient of a real by zero is the infinity of the dividend's sign, the bottom element at 0/0. -/
private theorem div_coe_zero (u : ℝ) : Ideal.div (u : EReal) 0 = if 0 < u then ⊤ else ⊥ := by
  rw [Ideal.div, if_pos rfl]
  simp only [EReal.coe_pos]

/-- The reference's quotient of the two means, over four times, is a quarter of the quotient of the two sums:
    for a nonzero divisor by field arithmetic, for a zero divisor because both quotients are the same infinity
    (or the bottom element), which a positive real factor fixes. -/
private theorem channel (a b : ℝ) :
    Ideal.div (Ideal.div (0 + (a : EReal)) ((884736 : ℝ) : EReal))
        (((4 : ℝ) : EReal) * Ideal.div (0 + (b : EReal)) ((884736 : ℝ) : EReal))
      = Ideal.div (a : EReal) (b : EReal) * ((1 / 4 : ℝ) : EReal) := by
  rw [zero_add, zero_add, div_coe_coe a (by norm_num), div_coe_coe b (by norm_num), ← EReal.coe_mul]
  by_cases hb : b = 0
  · subst hb
    rw [show (4 : ℝ) * ((0 : ℝ) / 884736) = 0 by norm_num, EReal.coe_zero, div_coe_zero, div_coe_zero]
    by_cases ha : 0 < a
    · rw [if_pos ha, if_pos (by positivity), EReal.top_mul_coe_of_pos (by norm_num)]
    · have ha' : ¬ 0 < a / 884736 := fun h => ha (by
        have := mul_pos h (show (0 : ℝ) < 884736 by norm_num)
        rwa [div_mul_cancel₀ _ (by norm_num : (884736 : ℝ) ≠ 0)] at this)
      rw [if_neg ha, if_neg ha', EReal.bot_mul_coe_of_pos (by norm_num)]
  · rw [div_coe_coe _ (by positivity : (4 : ℝ) * (b / 884736) ≠ 0), div_coe_coe a hb, ← EReal.coe_mul]
    congr 1
    field_simp

/-! ## A nonnegative real factor and sums of extended reals -/

/-- A nonnegative real factor distributes over a finite sum of arbitrary extended reals. -/
private theorem sum_mul_coe {ι : Type*} (s : Finset ι) (f : ι → EReal) {q : ℝ} (hq : 0 ≤ q) :
    (∑ i ∈ s, f i) * (q : EReal) = ∑ i ∈ s, f i * (q : EReal) := by
  classical
  induction s using Finset.induction_on with
  | empty => simp
  | insert i s hi ih =>
    rw [Finset.sum_insert hi, Finset.sum_insert hi,
      EReal.right_distrib_of_nonneg_of_ne_top (EReal.coe_nonneg.2 hq) (EReal.coe_ne_top q), ih]

/-! ## Regrouping 64 terms -/

/-- Consecutive pairs. -/
private theorem sum_pairs {M : Type*} [AddCommMonoid M] (g : ℕ → M) (k : ℕ) :
    ∑ s ∈ Finset.range k, (g (2 * s) + g (2 * s + 1)) = ∑ n ∈ Finset.range (2 * k), g n := by
  induction k with
  | zero => simp
  | succ k ih =>
    rw [Finset.sum_range_succ, ih, show 2 * (k + 1) = 2 * k + 1 + 1 by ring, Finset.sum_range_succ,
      Finset.sum_range_succ, add_assoc]

/-- Consecutive fours. -/
private theorem sum_fours {M : Type*} [AddCommMonoid M] (g : ℕ → M) (k : ℕ) :
    ∑ a ∈ Finset.range k, ∑ b ∈ Finset.range 4, g (4 * a + b) = ∑ n ∈ Finset.range (4 * k), g n := by
  induction k with
  | zero => simp
  | succ k ih =>
    rw [Finset.sum_range_succ, ih, show 4 * (k + 1) = 4 * k + 4 by ring, Finset.sum_range_add]

/-- The kernel's grouping: two cores, sixteen steps each, two channels a step, the factor applied per core. -/
private theorem kernel_side (ρ : ℕ → EReal) {q : ℝ} (hq : 0 ≤ q) :
    (∑ s ∈ Finset.range (15 + 1), (ρ (2 * (16 * 0 + s)) + ρ (2 * (16 * 0 + s) + 1))) * (q : EReal)
        + (∑ s ∈ Finset.range (15 + 1), (ρ (2 * (16 * 1 + s)) + ρ (2 * (16 * 1 + s) + 1))) * (q : EReal)
      = (∑ n ∈ Finset.range 64, ρ n) * (q : EReal) := by
  rw [← EReal.right_distrib_of_nonneg_of_ne_top (EReal.coe_nonneg.2 hq) (EReal.coe_ne_top q)]
  congr 1
  rw [show (64 : ℕ) = 2 * (16 + 16) from rfl, ← sum_pairs ρ (16 + 16),
    Finset.sum_range_add (fun s => ρ (2 * s) + ρ (2 * s + 1)) 16 16]
  simp only [Nat.mul_zero, Nat.zero_add, Nat.mul_one, Nat.reduceAdd]

/-- The reference's grouping: batch by channel, a quarter inside the sum and a sixteenth outside. -/
private theorem reference_side (ρ : ℕ → EReal) :
    Ideal.div (0 + ∑ j : (⟨2, ![16, 4]⟩ : Shape).Idx, ρ (4 * (j 0).val + (j 1).val) * ((1 / 4 : ℝ) : EReal))
        ((16 : ℝ) : EReal)
      = (∑ n ∈ Finset.range 64, ρ n) * ((1 / 64 : ℝ) : EReal) := by
  rw [zero_add, Ideal.div_coe (by norm_num), sum_idx2]
  have h : ∑ a : Fin 16, ∑ b : Fin 4, ρ (4 * (ix2 a b 0).val + (ix2 a b 1).val) * ((1 / 4 : ℝ) : EReal)
      = ∑ n ∈ Finset.range 64, ρ n * ((1 / 4 : ℝ) : EReal) := by
    rw [show (64 : ℕ) = 4 * 16 from rfl, ← sum_fours (fun n => ρ n * ((1 / 4 : ℝ) : EReal)) 16,
      Finset.sum_range]
    refine Finset.sum_congr rfl fun a _ => ?_
    rw [Finset.sum_range]
  rw [h, ← sum_mul_coe _ _ (by norm_num), mul_assoc, ← EReal.coe_mul]
  norm_num

/-! ## The theorem -/

/-- On real entries the two results are one extended real. -/
theorem kval_eq_rval (X L : S5.Idx → EReal) (hX : ∀ i, ∃ x : ℝ, X i = (x : EReal)) (hL : ∀ i, ∃ x : ℝ, L i = (x : EReal)) :
    kval X L = rval X L := by
  have hk : kval X L = (∑ n ∈ Finset.range 64, ratio X L n) * ((1 / 64 : ℝ) : EReal) := by
    unfold kval acc step
    rw [ofBits_inv64]
    exact kernel_side (ratio X L) (by norm_num)
  have hr : rval X L = (∑ n ∈ Finset.range 64, ratio X L n) * ((1 / 64 : ℝ) : EReal) := by
    unfold rval
    rw [Ideal.ofBits_zero_f32, ofBits_884736, ofBits_4, ofBits_16]
    rw [← reference_side (ratio X L)]
    congr 2
    refine Finset.sum_congr rfl fun j _ => ?_
    obtain ⟨a, ha⟩ := ssq_real X L hX hL (4 * (j 0).val + (j 1).val)
    obtain ⟨b, hb⟩ := sab_real L hL (4 * (j 0).val + (j 1).val)
    rw [ratio, ha, hb]
    exact channel a b
  rw [hk, hr]

end Cert.LossSpec

end
-- ==== Proof.Finite.lean ====
/-
  The precondition says every entry of both argument arrays is a real number.
-/
import proofs.«180223_g78099685310900_feedfinal_268_6_alg».proof.Pre_finite_inputs
import Idealize.ShloMosaic.PureOps.Ideal
import Idealize.ShloMosaic.Lib.ReduceAll

noncomputable section

namespace Cert.FiniteInputs

open Idealize.ShloMosaic

/-- An extended real whose absolute value max x (-x) lies strictly below ⊤ is a real: at ⊥ the negation is ⊤,
    at ⊤ the value itself is, and either way the maximum is ⊤. -/
private theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (sign 0, exponent all ones, fraction 0) denotes ⊤. -/
private theorem ofBits_inf : Ideal.ofBits .f32 0x7F800000#32 = ⊤ := by simp [Ideal.ofBits, Ideal.ieee]

/-- One entry of the printed comparison |x| < +inf being 1 says that x is a real. -/
private theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- The result of the two reductions has rank 0, hence exactly one index. -/
private instance : Subsingleton Cert.Pre_finite_inputs.S_.Idx := ⟨fun a b => funext fun d => d.elim0⟩

/-- If the printed predicate (|x| < +inf at every entry of both arrays) is all ones, every entry is real. -/
theorem real_of_pre [Cert.Pre_finite_inputs.Facts] (X L : FVec Ideal Cert.Pre_finite_inputs.S16x4x96x96x96 .f32)
    (h : Cert.Pre_finite_inputs.fn (F := Ideal) X L = fun _ => 1#1) :
    (∀ i, ∃ x : ℝ, X i = (x : EReal)) ∧ (∀ i, ∃ x : ℝ, L i = (x : EReal)) := by
  have h0 := congrFun h (fun a => a.elim0)
  dsimp only [Cert.Pre_finite_inputs.fn] at h0
  obtain ⟨hX, hL⟩ := IntOp.andi_eq_one.1 h0
  refine ⟨fun i => ?_, fun i => ?_⟩
  · have e := Host.reduce_andi_all _ _ _ _ _ hX i
    exact real_of_cmp (X i) e
  · have e := Host.reduce_andi_all _ _ _ _ _ hL i
    exact real_of_cmp (L i) e

end Cert.FiniteInputs

end
-- ==== Proof.RefValue.lean ====
/-
  The reference's result, read at the ideal instance, is the specification's `rval` of the argument arrays.

  The reference sums over the three spatial axes of the 16 x 4 x 96 x 96 x 96 arrays into a 16 x 4 array, and the
  specification sums channel n = 4 b + ch over the 9216 x 96 row-major view of that channel, lanes outermost. The two
  agree because (depth, height, width) -> (width, 96 * depth + height) is a bijection from the positions of one
  channel onto Fin 96 x Fin 9216, whose inverse is the specification's `cidx`; a finite sum does not depend on the
  order of its terms. Everything else in the reference is elementwise and reads off stage by stage.
-/
import proofs.«180223_g78099685310900_feedfinal_268_6_alg».proof.Proof.Gen.ReferenceIdeal.Read
import proofs.«180223_g78099685310900_feedfinal_268_6_alg».proof.Proof.Spec

noncomputable section

namespace Cert.ReferenceIdeal.RefValue

open Cert.ReferenceIdeal Cert.ReferenceIdeal.Gen Idealize.ShloMosaic Idealize.ShloMosaic.ValueIdx

/-- The row of a spatial position in its channel's 9216 x 96 view: depth and height in row-major order. -/
private def rowOf (i : S16x4x96x96x96.Idx) : Fin 9216 :=
  ⟨96 * (i 2).val + (i 3).val, by
    have h2 : (i 2).val < 96 := (i 2).isLt
    have h3 : (i 3).val < 96 := (i 3).isLt
    omega⟩

/-- Dropping the three spatial axes keeps the batch and channel coordinates, so an index drops to `j` exactly when
    its first two coordinates are `j`'s. -/
private theorem drop_eq_iff (i : S16x4x96x96x96.Idx) (j : S16x4.Idx) :
    reducesTo_S16x4x96x96x96_S16x4_d2_3_4.drop i = j ↔ (i 0).val = (j 0).val ∧ (i 1).val = (j 1).val := by
  constructor
  · intro h
    subst h
    exact ⟨rfl, rfl⟩
  · rintro ⟨h0, h1⟩
    funext b
    match b with
    | ⟨0, _⟩ => exact Fin.ext h0
    | ⟨1, _⟩ => exact Fin.ext h1

/-- The sum over the positions of channel (j 0, j 1) is the sum over lanes and rows of that channel's view:
    i -> (i 4, 96 * i 2 + i 3) and (l, r) -> cidx (4 * j 0 + j 1) r l are inverse to each other between the two
    index sets. -/
private theorem sum_filter_drop (G : S16x4x96x96x96.Idx → EReal) (j : S16x4.Idx) :
    ∑ i ∈ Finset.univ.filter (fun i => reducesTo_S16x4x96x96x96_S16x4_d2_3_4.drop i = j), G i
      = ∑ l : Fin 96, ∑ r : Fin 9216, G (Cert.LossSpec.cidx (4 * (j 0).val + (j 1).val) r.val l) := by
  have hj0 : (j 0).val < 16 := (j 0).isLt
  have hj1 : (j 1).val < 4 := (j 1).isLt
  rw [← Fintype.sum_prod_type' (fun (l : Fin 96) (r : Fin 9216) => G (Cert.LossSpec.cidx (4 * (j 0).val + (j 1).val) r.val l))]
  refine Finset.sum_nbij' (fun i => ((i 4 : Fin 96), rowOf i))
    (fun p => Cert.LossSpec.cidx (4 * (j 0).val + (j 1).val) p.2.val p.1) ?_ ?_ ?_ ?_ ?_
  · intro i _; exact Finset.mem_univ _
  · -- cidx (4 * j 0 + j 1) r l lies in channel (j 0, j 1): (4 a + b) / 4 % 16 = a and (4 a + b) % 4 = b for b < 4, a < 16
    intro p _
    rw [Finset.mem_filter]
    refine ⟨Finset.mem_univ _, (drop_eq_iff _ _).2 ⟨?_, ?_⟩⟩
    · show (4 * (j 0).val + (j 1).val) / 4 % 16 = (j 0).val
      omega
    · show (4 * (j 0).val + (j 1).val) % 4 = (j 1).val
      omega
  · -- a position of the channel is cidx of its lane and row: (96 c + d) / 96 % 96 = c and (96 c + d) % 96 = d for c, d < 96
    intro i hi
    rw [Finset.mem_filter] at hi
    obtain ⟨h0, h1⟩ := (drop_eq_iff _ _).1 hi.2
    have h2 : (i 2).val < 96 := (i 2).isLt
    have h3 : (i 3).val < 96 := (i 3).isLt
    have hi0 : (i 0).val < 16 := (i 0).isLt
    have hi1 : (i 1).val < 4 := (i 1).isLt
    funext a
    match a with
    | ⟨0, _⟩ => exact Fin.ext (by show (4 * (j 0).val + (j 1).val) / 4 % 16 = (i 0).val; omega)
    | ⟨1, _⟩ => exact Fin.ext (by show (4 * (j 0).val + (j 1).val) % 4 = (i 1).val; omega)
    | ⟨2, _⟩ => exact Fin.ext (by show (96 * (i 2).val + (i 3).val) / 96 % 96 = (i 2).val; omega)
    | ⟨3, _⟩ => exact Fin.ext (by show (96 * (i 2).val + (i 3).val) % 96 = (i 3).val; omega)
    | ⟨4, _⟩ => rfl
  · -- the lane and row of cidx n r l are l and r: 96 * (r / 96 % 96) + r % 96 = r for r < 9216
    intro p _
    have hr : p.2.val < 9216 := p.2.isLt
    refine Prod.ext rfl (Fin.ext ?_)
    show 96 * (p.2.val / 96 % 96) + p.2.val % 96 = p.2.val
    omega
  · -- the summands agree along the bijection
    intro i hi
    rw [Finset.mem_filter] at hi
    obtain ⟨h0, h1⟩ := (drop_eq_iff _ _).1 hi.2
    have h2 : (i 2).val < 96 := (i 2).isLt
    have h3 : (i 3).val < 96 := (i 3).isLt
    have hi0 : (i 0).val < 16 := (i 0).isLt
    have hi1 : (i 1).val < 4 := (i 1).isLt
    congr 1
    funext a
    match a with
    | ⟨0, _⟩ => exact Fin.ext (by show (i 0).val = (4 * (j 0).val + (j 1).val) / 4 % 16; omega)
    | ⟨1, _⟩ => exact Fin.ext (by show (i 1).val = (4 * (j 0).val + (j 1).val) % 4; omega)
    | ⟨2, _⟩ => exact Fin.ext (by show (i 2).val = (96 * (i 2).val + (i 3).val) / 96 % 96; omega)
    | ⟨3, _⟩ => exact Fin.ext (by show (i 3).val = (96 * (i 2).val + (i 3).val) % 96; omega)
    | ⟨4, _⟩ => rfl

section Stages

open Cert.ReferenceIdeal.Read

/-- The reference's sum of squared differences over the spatial axes, at (j 0, j 1), is zero plus the
    specification's `ssq` of channel 4 * j 0 + j 1. -/
private theorem v2_eq (X L : (⟨S16x4x96x96x96, .f32⟩ : BufTy).Contents (Elt Ideal)) (j : S16x4.Idx) :
    val_main_v2 (F := Ideal) X L j
      = Ideal.ofBits .f32 0x00000000#32 + Cert.LossSpec.ssq X L (4 * (j 0).val + (j 1).val) := by
  show Ideal.hostReduceAdd reducesTo_S16x4x96x96x96_S16x4_d2_3_4 (val_main_v1 (F := Ideal) X L)
      (val_main_cst (F := Ideal) (Shape.Idx.first h_S_)) j = _
  unfold Ideal.hostReduceAdd
  rw [sum_filter_drop]
  rfl

/-- The reference's sum of absolute labels over the spatial axes, at (j 0, j 1), is zero plus the specification's
    `sab` of channel 4 * j 0 + j 1. -/
private theorem v6_eq (L : (⟨S16x4x96x96x96, .f32⟩ : BufTy).Contents (Elt Ideal)) (j : S16x4.Idx) :
    val_main_v6 (F := Ideal) L j
      = Ideal.ofBits .f32 0x00000000#32 + Cert.LossSpec.sab L (4 * (j 0).val + (j 1).val) := by
  show Ideal.hostReduceAdd reducesTo_S16x4x96x96x96_S16x4_d2_3_4 (val_main_v5 (F := Ideal) L)
      (val_main_cst_1 (F := Ideal) (Shape.Idx.first h_S_)) j = _
  unfold Ideal.hostReduceAdd
  rw [sum_filter_drop]
  rfl

end Stages

/-- The reference's result array holds `rval` of the arguments at its one index. -/
theorem result_eq (X L : (⟨S16x4x96x96x96, .f32⟩ : BufTy).Contents (Elt Ideal)) :
    Cert.ReferenceIdeal.Read.val_main_v14 (F := Ideal) X L = fun _ => Cert.LossSpec.rval X L := by
  funext i
  -- the reshape from rank 0 to one element: both shapes have one row-major position
  have h14 : Read.val_main_v14 (F := Ideal) X L i = Read.val_main_v13 (F := Ideal) X L ix0 := by
    unfold Read.val_main_v14
    exact shapeCast_apply _ shapeCasts_S_S1 i ix0 (by
      have := (S_.rowMajor ix0).isLt
      have := (S1.rowMajor i).isLt
      have e0 : S_.numel = 1 := by decide
      have e1 : S1.numel = 1 := by decide
      omega)
  rw [h14]
  -- the elementwise stages, outermost first, down to the two sums over the spatial axes
  simp only [Read.val_main_v13_apply, Read.val_main_v12_apply, Read.val_main_v11_apply, Read.val_main_v4_apply,
    Read.val_main_v10_apply, Read.val_main_v9_apply, Read.val_main_v8_apply, Read.val_main_v3_apply,
    Read.val_main_v7_apply, Read.val_main_cst_0_apply, Read.val_main_cst_2_apply, Read.val_main_cst_3_apply,
    Read.val_main_cst_4_apply, Read.val_main_cst_5_apply, Ideal.hostDivf_def, Ideal.mulf_def, Ideal.ofBits_def,
    v2_eq, v6_eq]
  rfl

end Cert.ReferenceIdeal.RefValue

end
-- ==== Proof.KPieces.lean ====
/-
  What one run of the kernel body leaves behind, case by case, as the body's own arithmetic (the payloads) of what it
  loaded. The body has three control cases on the inner grid coordinate j:
    first step of a core (j = 0):   the accumulator is reset to zero, then the step's sum is added to it;
    a middle step (0 < j < 15):     the step's sum is added to what the step before left in the accumulator;
    last step of a core (j = 15):   the same, and the accumulator times 1/64 is stored into the output block.
  Every load and store is of a whole buffer, so each buffer ends holding the last payload stored into it, and a load
  after a store in the same run reads that store's payload.
-/
import proofs.«180223_g78099685310900_feedfinal_268_6_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.KValue
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a core: the accumulator ends at (zero block) + (this step's sum). -/
theorem scratch_A (c : Dev nD) (i : grid0.Coords) (arg2 : Memref sig .tc .vmem S2x9216x96 .f32) (harg2 : arg2.IsWhole) (arg3 : Memref sig .tc .vmem S2x9216x96 .f32) (harg3 : arg3.IsWhole) (arg4 : Memref sig .tc .vmem S1x1x96 .f32) (harg4 : arg4.IsWhole) (arg5 : Memref sig .tc .vmem S1x96 .f32) (harg5 : arg5.IsWhole) (hc0 : cond0_0 i) (hc1 : ¬cond0_1 i)
    (x0 : Vec F S2x9216x96 .f32) (x1 : Vec F S2x9216x96 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x96) hz2, View.readCov_unit_zero (S := S1x96) _ hz2]
  simp only [View.readAt_eq_ld, harg2.read_unread, harg3.read_unread, View.ld_unit_zero (S := S2x9216x96) hz3]

/-- A middle step: the accumulator ends at (what it held) + (this step's sum). -/
theorem scratch_B (c : Dev nD) (i : grid0.Coords) (arg2 : Memref sig .tc .vmem S2x9216x96 .f32) (harg2 : arg2.IsWhole) (arg3 : Memref sig .tc .vmem S2x9216x96 .f32) (harg3 : arg3.IsWhole) (arg4 : Memref sig .tc .vmem S1x1x96 .f32) (harg4 : arg4.IsWhole) (arg5 : Memref sig .tc .vmem S1x96 .f32) (harg5 : arg5.IsWhole) (hc0 : ¬cond0_0 i) (hc1 : ¬cond0_1 i)
    (x0 : Vec F S2x9216x96 .f32) (x1 : Vec F S2x9216x96 .f32) (xs0 : Vec F S1x96 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S2x9216x96) hz3, View.ld_unit_zero (S := S1x96) hz2]

/-- Last step of a core: the accumulator likewise, -/
theorem scratch_C (c : Dev nD) (i : grid0.Coords) (arg2 : Memref sig .tc .vmem S2x9216x96 .f32) (harg2 : arg2.IsWhole) (arg3 : Memref sig .tc .vmem S2x9216x96 .f32) (harg3 : arg3.IsWhole) (arg4 : Memref sig .tc .vmem S1x1x96 .f32) (harg4 : arg4.IsWhole) (arg5 : Memref sig .tc .vmem S1x96 .f32) (harg5 : arg5.IsWhole) (hc0 : ¬cond0_0 i) (hc1 : cond0_1 i)
    (x0 : Vec F S2x9216x96 .f32) (x1 : Vec F S2x9216x96 .f32) (xs0 : Vec F S1x96 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S2x9216x96) hz3, View.ld_unit_zero (S := S1x96) hz2]

/-- and the output block ends at that accumulator scaled by the stored constant. -/
theorem out_C (c : Dev nD) (i : grid0.Coords) (arg2 : Memref sig .tc .vmem S2x9216x96 .f32) (harg2 : arg2.IsWhole) (arg3 : Memref sig .tc .vmem S2x9216x96 .f32) (harg3 : arg3.IsWhole) (arg4 : Memref sig .tc .vmem S1x1x96 .f32) (harg4 : arg4.IsWhole) (arg5 : Memref sig .tc .vmem S1x96 .f32) (harg5 : arg5.IsWhole) (hc0 : ¬cond0_0 i) (hc1 : cond0_1 i)
    (x0 : Vec F S2x9216x96 .f32) (x1 : Vec F S2x9216x96 .f32) (xs0 : Vec F S1x96 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x96) _ hz2]
  simp only [View.readAt_eq_ld, harg2.read_unread, harg3.read_unread, harg5.read_unread,
    View.ld_unit_zero (S := S2x9216x96) hz3, View.ld_unit_zero (S := S1x96) hz2]

end Cert.KernelIdeal.KValue
end
-- ==== Proof.KPayload.lean ====
/-
  The body's arithmetic at the ideal instance, read at an index. With x the input block and y the label block of one
  grid step (two channels of 9216 rows by 96 lanes each), the value added to every lane of the accumulator is
      (sum of (x - y)^2 over channel 0) / (sum of |y| over channel 0) + the same quotient for channel 1,
  each sum taken over the rows first and then over the lanes; the reset payload is the zero block; the output payload
  is the accumulator times the stored constant.
-/
import proofs.«180223_g78099685310900_feedfinal_268_6_alg».proof.Proof.Gen.KernelIdeal.Skeleton
import Idealize.ShloMosaic.Lib.Pipeline.Value
import Idealize.ShloMosaic.Lib.ValueIdx
import Idealize.ShloMosaic.PureOps.Ideal.Laws

noncomputable section
open Idealize.ShloMosaic Idealize.ShloMosaic.ValueIdx

namespace Cert.KernelIdeal.KValue
open Cert.KernelIdeal Cert.KernelIdeal.Gen

/-- One channel's sum of squared differences over a block, rows innermost. -/
def bssq (x y : FVec Ideal S2x9216x96 .f32) (k : Fin 2) : EReal :=
  ∑ l : Fin 96, ∑ r : Fin 9216, (x (ix3 k r l) - y (ix3 k r l)) * (x (ix3 k r l) - y (ix3 k r l))

/-- One channel's sum of absolute labels over a block. -/
def bsab (y : FVec Ideal S2x9216x96 .f32) (k : Fin 2) : EReal :=
  ∑ l : Fin 96, ∑ r : Fin 9216, max (y (ix3 k r l)) (-(y (ix3 k r l)))

/-- What one grid step adds to the accumulator. -/
def bstep (x y : FVec Ideal S2x9216x96 .f32) : EReal :=
  Ideal.div (bssq x y 0) (bsab y 0) + Ideal.div (bssq x y 1) (bsab y 1)

/-- Summing a block over its rows and then over its lanes, per channel. -/
theorem rows_then_lanes (v : FVec Ideal S2x9216x96 .f32) (h1 : S2x9216x96.Reduces [1] S2x96) (h2 : S2x96.Reduces [1] S2)
    (hφ : FKind.Formats .f32) (hacc : (0x00000000#32 : BitVec FTy.f32.bits) = FKind.add.neutral .f32 hφ) (k : Fin 2) :
    multiReduction .add [1] S2 (multiReduction .add [1] S2x96 v 0x00000000#32 h1 hφ hacc) 0x00000000#32 h2 hφ hacc (ix1 k)
      = ∑ l : Fin 96, ∑ r : Fin 9216, v (ix3 k r l) := by
  refine (Ideal.multiReduction_add_single _ _ h2 hφ hacc (ix1 k)).trans ?_
  show ∑ l : Fin 96, _ = _
  refine Finset.sum_congr rfl fun l _ => ?_
  refine (Ideal.multiReduction_add_single v _ h1 hφ hacc _).trans ?_
  show ∑ r : Fin 9216, _ = _
  refine Finset.sum_congr rfl fun r _ => ?_
  congr 1
  funext a
  match a with
  | ⟨0, _⟩ => rfl
  | ⟨1, _⟩ => rfl
  | ⟨2, _⟩ => rfl

/-- The per-channel vector viewed as a column reads the channel's entry. -/
theorem column_apply (v : FVec Ideal S2 .f32) (h : S2.ShapeCasts S2x1) (k : Fin 2) :
    shapeCast S2x1 v h (ix2 k 0) = v (ix1 k) := by
  refine shapeCast_apply v h (ix2 k 0) (ix1 k) ?_
  simp [Shape.rowMajor_val_one, Shape.rowMajor_val_two]

/-- Summing the two channels' column. -/
theorem channels_sum (v : FVec Ideal S2x1 .f32) (h : S2x1.Reduces [0] S1)
    (hφ : FKind.Formats .f32) (hacc : (0x00000000#32 : BitVec FTy.f32.bits) = FKind.add.neutral .f32 hφ) :
    multiReduction .add [0] S1 v 0x00000000#32 h hφ hacc (ix1 0) = v (ix2 0 0) + v (ix2 1 0) := by
  refine (Ideal.multiReduction_add_single v _ h hφ hacc (ix1 0)).trans ?_
  show ∑ k : Fin 2, _ = _
  rw [Fin.sum_univ_two]
  congr 1 <;> congr 1 <;> funext a <;> match a with
  | ⟨0, _⟩ => rfl
  | ⟨1, _⟩ => rfl

/-- A one-entry block broadcast along the lanes reads its entry at every lane. -/
theorem lanes_apply (v : FVec Ideal S1x1 .f32) (h : S1x1.Broadcasts S1x96) (j : S1x96.Idx) :
    broadcastTo S1x96 v h j = v (ix2 0 0) := by
  refine broadcastTo_apply v h j (ix2 0 0) fun a => ?_
  match a with
  | ⟨0, _⟩ => rfl
  | ⟨1, _⟩ => rfl

/-- A one-entry vector viewed as a one-entry block. -/
theorem unit_block_apply (v : FVec Ideal S1 .f32) (h : S1.ShapeCasts S1x1) (j : S1x1.Idx) :
    shapeCast S1x1 v h j = v (ix1 0) := by
  refine shapeCast_apply v h j (ix1 0) ?_
  have h0 : (j 0).val < 1 := (j 0).isLt
  have h1 : (j 1).val < 1 := (j 1).isLt
  simp [Shape.rowMajor_val_one, Shape.rowMajor_val_two]
  omega

/-- The reset payload is the zero block. -/
theorem pay1_apply (j : S1x96.Idx) : (k0_pay1 (F := Ideal)) j = 0 := by
  unfold k0_pay1
  simp only [shapeCast_self]
  exact Ideal.ofBits_zero_f32

/-- The update payload: every lane of the accumulator plus the step's sum of the two channels' quotients. -/
theorem pay2_apply (x y : FVec Ideal S2x9216x96 .f32) (a : FVec Ideal S1x96 .f32) (j : S1x96.Idx) :
    k0_pay2 x y a j = a j + bstep x y := by
  unfold k0_pay2
  simp only [shapeCast_self]
  show a j + _ = a j + _
  refine congrArg (a j + ·) ?_
  refine (lanes_apply _ _ j).trans ?_
  refine (unit_block_apply _ _ (ix2 0 0)).trans ?_
  refine (channels_sum _ _ _ _).trans ?_
  unfold bstep
  refine congrArg₂ (· + ·) ?_ ?_
  · refine (divf_apply _ _ _).trans ?_
    refine congrArg₂ Ideal.div ?_ ?_
    · refine (column_apply _ _ 0).trans ?_
      exact rows_then_lanes _ _ _ _ _ 0
    · refine (column_apply _ _ 0).trans ?_
      exact rows_then_lanes _ _ _ _ _ 0
  · refine (divf_apply _ _ _).trans ?_
    refine congrArg₂ Ideal.div ?_ ?_
    · refine (column_apply _ _ 1).trans ?_
      exact rows_then_lanes _ _ _ _ _ 1
    · refine (column_apply _ _ 1).trans ?_
      exact rows_then_lanes _ _ _ _ _ 1

/-- The output payload: the accumulator's lane times the stored constant. -/
theorem pay3_apply (v : FVec Ideal S1x96 .f32) (h : S1x96.ShapeCasts S1x1x96) (l : Fin 96) :
    k0_pay3 v (ix3 0 0 l) = v (ix2 0 l) * Ideal.ofBits .f32 0x3C800000#32 := by
  unfold k0_pay3
  show _ * _ = _ * _
  refine congrArg (· * Ideal.ofBits .f32 0x3C800000#32) ?_
  refine shapeCast_apply v _ (ix3 0 0 l) (ix2 0 l) ?_
  simp [Shape.rowMajor_val_two, Shape.rowMajor_val_three]

end Cert.KernelIdeal.KValue
end
-- ==== Proof.KBlocks.lean ====
/-
  What the two input windows' blocks hold, in terms of the argument arrays. Before the kernel runs, each argument is
  viewed row-major as 64 channels of 9216 rows by 96 lanes; grid step t (core t / 16, inner step t % 16) is handed
  channels 2t and 2t+1 of each view. So entry (k, r, l) of step t's block is the argument's entry at batch (2t+k) / 4,
  channel (2t+k) % 4, depth r / 96, height r % 96, width l: the same row-major position.
-/
import proofs.«180223_g78099685310900_feedfinal_268_6_alg».proof.Proof.Gen.KernelIdeal.Frame.Runs
import proofs.«180223_g78099685310900_feedfinal_268_6_alg».proof.Proof.Spec
import Idealize.ShloMosaic.Lib.Pipeline.Value
import Idealize.ShloMosaic.Lib.StableHlo.Run
import Idealize.ShloMosaic.Lib.ValueIdx
import Idealize.ShloMosaic.Lib.Tactic

noncomputable section
open Idealize.ShloMosaic Idealize.ShloMosaic.TcCoe Idealize.SL.Sem Idealize.ShloMosaic.ValueIdx

namespace Cert.KernelIdeal.KValue
open Cert.KernelIdeal Cert.KernelIdeal.Gen

variable (m : (ℓ : Loc nD τ sig) → Buf (Elt Ideal) ℓ)

/-- The input, as the kernel's region finds it: the row-major view of the argument. -/
theorem view_input (c : Dev nD) (h : S16x4x96x96x96.ShapeCasts S64x9216x96) :
    (V m c main_v0 : S64x9216x96.Idx → EReal) = shapeCast S64x9216x96 (m ((c : Thread nD τ).loc main_arg0)) h := by
  show StableHlo.after hostOps0 (fun b => m (c, b)) (Proc.devRef .tc main_v0) = _
  after_results
  rfl

/-- The label likewise. -/
theorem view_label (c : Dev nD) (h : S16x4x96x96x96.ShapeCasts S64x9216x96) :
    (V m c main_v1 : S64x9216x96.Idx → EReal) = shapeCast S64x9216x96 (m ((c : Thread nD τ).loc main_arg1)) h := by
  show StableHlo.after hostOps0 (fun b => m (c, b)) (Proc.devRef .tc main_v1) = _
  after_results
  rfl

/-- Step t's input block starts at channel 2t: its block index is (t, 0, 0), blocks being two channels thick. -/
theorem index_input : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem index_label : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Entry (k, r, l) of step t's input block. -/
theorem input_block_apply (c : Dev nD) (t : Fin cfg0.N) (k : Fin 2) (r : Fin 9216) (l : Fin 96) :
    (iblk m c 0 t : Vec Ideal S2x9216x96 .f32) (ix3 k r l)
      = m ((c : Thread nD τ).loc main_arg0) (Cert.LossSpec.cidx (2 * t.val + k.val) r.val l) := by
  have hN : t.val < 32 := lt_of_lt_of_eq t.isLt (show cfg0.N = 32 from N_0)
  obtain ⟨i0, i1, i2⟩ := index_input t
  unfold iblk
  rw [View.read_apply]
  show V m c main_v0 _ = _
  rw [view_input m c (by decide)]
  refine shapeCast_apply _ _ _ _ ?_
  refine (Shape.rowMajor_val_five (d := ![16, 4, 96, 96, 96]) _).trans ?_
  refine Eq.trans ?_ (Shape.rowMajor_val_three (d := ![64, 9216, 96]) _).symm
  have e0 : ((((cfg0.win 0).blk t).view.emb (ix3 k r l)) 0).val = win0_0.index t 0 * 2 + 1 * k.val := rfl
  have e1 : ((((cfg0.win 0).blk t).view.emb (ix3 k r l)) 1).val = win0_0.index t 1 * 9216 + 1 * r.val := rfl
  have e2 : ((((cfg0.win 0).blk t).view.emb (ix3 k r l)) 2).val = win0_0.index t 2 * 96 + 1 * l.val := rfl
  rw [e0, e1, e2, i0, i1, i2]
  have hk : k.val < 2 := k.isLt
  have hr : r.val < 9216 := r.isLt
  show (((((2 * t.val + k.val) / 4 % 16) * 4 + (2 * t.val + k.val) % 4) * 96 + r.val / 96 % 96) * 96 + r.val % 96) * 96 + l.val
    = ((t.val * 2 + 1 * k.val) * 9216 + (0 * 9216 + 1 * r.val)) * 96 + (0 * 96 + 1 * l.val)
  omega

/-- Entry (k, r, l) of step t's label block. -/
theorem label_block_apply (c : Dev nD) (t : Fin cfg0.N) (k : Fin 2) (r : Fin 9216) (l : Fin 96) :
    (iblk m c 1 t : Vec Ideal S2x9216x96 .f32) (ix3 k r l)
      = m ((c : Thread nD τ).loc main_arg1) (Cert.LossSpec.cidx (2 * t.val + k.val) r.val l) := by
  have hN : t.val < 32 := lt_of_lt_of_eq t.isLt (show cfg0.N = 32 from N_0)
  obtain ⟨i0, i1, i2⟩ := index_label t
  unfold iblk
  rw [View.read_apply]
  show V m c main_v1 _ = _
  rw [view_label m c (by decide)]
  refine shapeCast_apply _ _ _ _ ?_
  refine (Shape.rowMajor_val_five (d := ![16, 4, 96, 96, 96]) _).trans ?_
  refine Eq.trans ?_ (Shape.rowMajor_val_three (d := ![64, 9216, 96]) _).symm
  have e0 : ((((cfg0.win 1).blk t).view.emb (ix3 k r l)) 0).val = win0_1.index t 0 * 2 + 1 * k.val := rfl
  have e1 : ((((cfg0.win 1).blk t).view.emb (ix3 k r l)) 1).val = win0_1.index t 1 * 9216 + 1 * r.val := rfl
  have e2 : ((((cfg0.win 1).blk t).view.emb (ix3 k r l)) 2).val = win0_1.index t 2 * 96 + 1 * l.val := rfl
  rw [e0, e1, e2, i0, i1, i2]
  have hk : k.val < 2 := k.isLt
  have hr : r.val < 9216 := r.isLt
  show (((((2 * t.val + k.val) / 4 % 16) * 4 + (2 * t.val + k.val) % 4) * 96 + r.val / 96 % 96) * 96 + r.val % 96) * 96 + l.val
    = ((t.val * 2 + 1 * k.val) * 9216 + (0 * 9216 + 1 * r.val)) * 96 + (0 * 96 + 1 * l.val)
  omega

end Cert.KernelIdeal.KValue
end
-- ==== Proof.KInvariant.lean ====
/-
  The accumulator across the grid. After grid step n (core n / 16, inner step n % 16) every lane of the accumulator holds
      acc (n / 16) (n % 16) = the sum of the steps 16 (n / 16), ..., n of that core,
  where a step's contribution is the sum of its two channels' quotients: the first step of a core resets to zero and
  adds, every later step adds to what the step before left. At a core's last step the output block is that
  accumulator times the stored constant. By induction on n over the three control cases.
-/
import proofs.«180223_g78099685310900_feedfinal_268_6_alg».proof.Proof.Gen.KernelIdeal.Frame
import proofs.«180223_g78099685310900_feedfinal_268_6_alg».proof.Proof.KPieces
import proofs.«180223_g78099685310900_feedfinal_268_6_alg».proof.Proof.KPayload
import proofs.«180223_g78099685310900_feedfinal_268_6_alg».proof.Proof.KBlocks

noncomputable section
open Idealize.ShloMosaic Idealize.ShloMosaic.TcCoe Idealize.SL.Sem Idealize.ShloMosaic.ValueIdx

namespace Cert.KernelIdeal.KValue
open Cert.KernelIdeal Cert.KernelIdeal.Gen

variable (m : (ℓ : Loc nD τ sig) → Buf (Elt Ideal) ℓ)

/-- The argument arrays on core c. -/
abbrev argX (c : Dev nD) : Cert.LossSpec.S5.Idx → EReal := m ((c : Thread nD τ).loc main_arg0)
abbrev argL (c : Dev nD) : Cert.LossSpec.S5.Idx → EReal := m ((c : Thread nD τ).loc main_arg1)

/-- Step t's input and label blocks, at their literal type. -/
abbrev xblk (c : Dev nD) (t : Fin cfg0.N) : FVec Ideal S2x9216x96 .f32 := iblk m c 0 t
abbrev yblk (c : Dev nD) (t : Fin cfg0.N) : FVec Ideal S2x9216x96 .f32 := iblk m c 1 t

/-- A step's contribution, computed from its blocks, is the specification's: channels 2t and 2t+1 of the arrays. -/
theorem bstep_eq (c : Dev nD) (t : Fin cfg0.N) :
    bstep (xblk m c t) (yblk m c t) = Cert.LossSpec.step (argX m c) (argL m c) t.val := by
  unfold bstep Cert.LossSpec.step Cert.LossSpec.ratio bssq bsab Cert.LossSpec.ssq Cert.LossSpec.sab
  simp only [xblk, yblk, input_block_apply, label_block_apply, Fin.val_zero, Fin.val_one, Nat.add_zero]

/-- First step of a core: the accumulator holds the step's contribution. -/
theorem scratch_first (c : Dev nD) (t : Fin cfg0.N) (h0 : t.val % 16 = 0) (h1 : ¬t.val % 16 = 15) (j : S1x96.Idx) :
    (outsAt0 m c t.val t.isLt).2 j = Cert.LossSpec.step (argX m c) (argL m c) t.val := by
  rw [outsAt0_A m c t h0 h1]
  dsimp only
  refine (congrFun (scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (yblk m c t)) j).trans ?_
  rw [pay2_apply, pay1_apply, zero_add, bstep_eq]

/-- A later step: the accumulator holds what the step before left plus the step's contribution. -/
theorem scratch_next (c : Dev nD) (t : Fin cfg0.N) (h0 : ¬t.val % 16 = 0) (j : S1x96.Idx) :
    (outsAt0 m c t.val t.isLt).2 j
      = (outsAt0 m c (t.val - 1) (Nat.lt_of_le_of_lt (Nat.sub_le _ _) t.isLt)).2 j + Cert.LossSpec.step (argX m c) (argL m c) t.val := by
  by_cases h1 : t.val % 16 = 15
  · rw [outsAt0_C m c t h0 h1]
    dsimp only
    refine (congrFun (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t)
      (outsAt0 m c (t.val - 1) (Nat.lt_of_le_of_lt (Nat.sub_le _ _) t.isLt)).2) j).trans ?_
    rw [pay2_apply, bstep_eq]
  · rw [outsAt0_B m c t h0 h1]
    dsimp only
    refine (congrFun (scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (yblk m c t)
      (outsAt0 m c (t.val - 1) (Nat.lt_of_le_of_lt (Nat.sub_le _ _) t.isLt)).2) j).trans ?_
    rw [pay2_apply, bstep_eq]

/-- Last step of a core: the output block is the accumulator this step leaves, times the stored constant. -/
theorem out_last (c : Dev nD) (t : Fin cfg0.N) (h0 : ¬t.val % 16 = 0) (h1 : t.val % 16 = 15) (l : Fin 96) :
    (outsAt0 m c t.val t.isLt).1 (ix3 0 0 l)
      = (outsAt0 m c t.val t.isLt).2 (ix2 0 l) * Ideal.ofBits .f32 0x3C800000#32 := by
  rw [outsAt0_C m c t h0 h1]
  dsimp only
  refine (congrFun (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t)
    (outsAt0 m c (t.val - 1) (Nat.lt_of_le_of_lt (Nat.sub_le _ _) t.isLt)).2) (ix3 0 0 l)).trans ?_
  refine (pay3_apply _ (by decide) l).trans ?_
  refine congrArg (· * Ideal.ofBits .f32 0x3C800000#32) ?_
  exact (congrFun (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t)
    (outsAt0 m c (t.val - 1) (Nat.lt_of_le_of_lt (Nat.sub_le _ _) t.isLt)).2) (ix2 0 l)).symm

/-- The accumulator after step n is the core's partial sum up to n. -/
theorem scratch_after (c : Dev nD) : ∀ (n : ℕ) (h : n < cfg0.N) (j : S1x96.Idx),
    (outsAt0 m c n h).2 j = Cert.LossSpec.acc (argX m c) (argL m c) (n / 16) (n % 16)
  | 0, h, j => by
    refine (scratch_first m c ⟨0, h⟩ rfl (by show ¬(0 : ℕ) % 16 = 15; decide) j).trans ?_
    simp [Cert.LossSpec.acc]
  | n + 1, h, j => by
    have hN : n + 1 < 32 := lt_of_lt_of_eq h (show cfg0.N = 32 from N_0)
    by_cases h0 : (n + 1) % 16 = 0
    · refine (scratch_first m c ⟨n + 1, h⟩ h0 (by dsimp only; omega) j).trans ?_
      show Cert.LossSpec.step _ _ (n + 1) = _
      rw [h0]
      unfold Cert.LossSpec.acc
      rw [Finset.sum_range_one, Nat.add_zero, show 16 * ((n + 1) / 16) = n + 1 by omega]
    · refine (scratch_next m c ⟨n + 1, h⟩ h0 j).trans ?_
      show (outsAt0 m c n _).2 j + Cert.LossSpec.step _ _ (n + 1) = _
      rw [scratch_after c n (Nat.lt_of_succ_lt h) j]
      unfold Cert.LossSpec.acc
      rw [show (n + 1) / 16 = n / 16 by omega, show (n + 1) % 16 = n % 16 + 1 by omega,
        Finset.sum_range_succ _ (n % 16 + 1), show 16 * (n / 16) + (n % 16 + 1) = n + 1 by omega]

end Cert.KernelIdeal.KValue
end
-- ==== Proof.KFinal.lean ====
/-
  The kernel's result. The output array has one row per core; the pipeline writes a core's row back once, after the
  core's last step, when it holds the core's total (the accumulator after sixteen steps) times the stored constant on
  every lane. The lines after the kernel take lane 0 of each row and add the two: the specification's `kval`.
-/
import proofs.«180223_g78099685310900_feedfinal_268_6_alg».proof.Proof.Gen.KernelIdeal.Frame
import proofs.«180223_g78099685310900_feedfinal_268_6_alg».proof.Proof.KInvariant
import Idealize.ShloMosaic.Lib.Pipeline.Value
import Idealize.ShloMosaic.Lib.StableHlo.Run
import Idealize.ShloMosaic.Lib.Tactic

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen

variable (m : (ℓ : Loc nD τ sig) → Buf (Elt Ideal) ℓ) (ρ : Dev nD → PrngReg)

/-- Step t's output block is row t / 16 (its core), whole: one row, one sublane, 96 lanes. -/
theorem index_out : ∀ t : Fin cfg0.N, win0_2.index t 0 = t.val / 16 ∧ win0_2.index t 1 = 0 ∧ win0_2.index t 2 = 0
    ∧ win0_2.xsize (grid0.coords t) 0 = 1 ∧ win0_2.xsize (grid0.coords t) 1 = 1 ∧ win0_2.xsize (grid0.coords t) 2 = 96 :=
  (by decide +kernel : ∀ t : Fin grid0.N, win0_2.index t 0 = t.val / 16 ∧ win0_2.index t 1 = 0 ∧ win0_2.index t 2 = 0
    ∧ win0_2.xsize (grid0.coords t) 0 = 1 ∧ win0_2.xsize (grid0.coords t) 1 = 1 ∧ win0_2.xsize (grid0.coords t) 2 = 96)

/-- What the kernel's output array ends holding: row k is core k's total times the constant, on every lane. -/
abbrev partials (c : Dev nD) : Buf (Elt Ideal) ((c : Thread nD τ).loc main_v2) :=
  fun (i : S2x1x96.Idx) => Cert.LossSpec.acc (argX m c) (argL m c) (i 0).val 15 * Ideal.ofBits .f32 0x3C800000#32

/-- At a core's last step every entry of the output block is the core's total times the constant. -/
theorem out_eq (c : Dev nD) (t : Fin cfg0.N) (h15 : t.val % 16 = 15) (y : S1x1x96.Idx) :
    (outsAt0 m c t.val t.isLt).1 y
      = Cert.LossSpec.acc (argX m c) (argL m c) (t.val / 16) 15 * Ideal.ofBits .f32 0x3C800000#32 := by
  obtain ⟨l, rfl⟩ : ∃ l : Fin 96, y = ix3 0 0 l := ⟨y 2, by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl⟩
  rw [out_last m c t (by omega) h15, scratch_after m c t.val t.isLt, h15]

/-- What a write-back writes is its block of `partials`. -/
theorem flushed_eq (c : Dev nD) (t : Fin cfg0.N) (hf : (cfg0.win 2).flush t = true) :
    (dats m 0 c).flushed 2 t = ((cfg0.win 2).blk t).view.read (Elt Ideal) (partials m c) := by
  have h15 : t.val % 16 = 15 := (flush0_2 t).mp hf
  obtain ⟨i0, i1, i2, _, _, _⟩ := index_out t
  show (cfg0.win 2).cut (grid0.coords t) ((dats m 0 c).after 2 t) = _
  rw [after0_2]
  funext y
  rw [View.read_apply]
  show (outsAt0 m c t.val t.isLt).1 (y : S1x1x96.Idx) = partials m c (((cfg0.win 2).blk t).view.emb y)
  rw [out_eq m c t h15]
  have e0 : ((((cfg0.win 2).blk t).view.emb y) 0).val = win0_2.index t 0 * 1 + 1 * ((y : S1x1x96.Idx) 0).val := rfl
  have hy : ((y : S1x1x96.Idx) 0).val < 1 := ((y : S1x1x96.Idx) 0).isLt
  show _ = Cert.LossSpec.acc _ _ ((((cfg0.win 2).blk t).view.emb y) 0).val 15 * _
  rw [e0, i0, show t.val / 16 * 1 + 1 * ((y : S1x1x96.Idx) 0).val = t.val / 16 by omega]

/-- The core of row k finishes at step 16 k + 15. -/
def lastStep (i : S2x1x96.Idx) : Fin cfg0.N :=
  ⟨16 * (i 0).val + 15, by
    have h : (i 0).val < 2 := (i 0).isLt
    rw [show cfg0.N = 32 from N_0]; omega⟩

/-- So the output array ends holding `partials`: each row is written back by its core's last step. -/
theorem final_out (c : Dev nD) : (dats m 0 c).arrAt 2 cfg0.N = partials m c :=
  (dats m 0 c).arrAt_eq_of_cover 2 (partials m c) (flushed_eq m c) fun i => by
    have h0 : (i 0 : Nat) < 2 := (i 0).isLt
    have h1 : (i 1 : Nat) < 1 := (i 1).isLt
    have h2 : (i 2 : Nat) < 96 := (i 2).isLt
    have hv : (lastStep i).val = 16 * (i 0 : Nat) + 15 := rfl
    refine ⟨lastStep i, (flush0_2 _).mpr (by rw [hv]; omega), ?_⟩
    obtain ⟨i0, i1, i2, x0, x1, x2⟩ := index_out (lastStep i)
    show i ∈ ((View.whole main_v2).slice (win0_2.rect (lastStep i))).set
    rw [View.set_slice_whole, Rect.mem_set_unit]
    intro a
    match a with
    | ⟨0, _⟩ =>
      show win0_2.index (lastStep i) 0 * 1 ≤ (i 0 : Nat) ∧ (i 0 : Nat) < win0_2.index (lastStep i) 0 * 1 + win0_2.xsize (grid0.coords (lastStep i)) 0
      rw [i0, x0, hv]; omega
    | ⟨1, _⟩ =>
      show win0_2.index (lastStep i) 1 * 1 ≤ (i 1 : Nat) ∧ (i 1 : Nat) < win0_2.index (lastStep i) 1 * 1 + win0_2.xsize (grid0.coords (lastStep i)) 1
      rw [i1, x1]; omega
    | ⟨2, _⟩ =>
      show win0_2.index (lastStep i) 2 * 96 ≤ (i 2 : Nat) ∧ (i 2 : Nat) < win0_2.index (lastStep i) 2 * 96 + win0_2.xsize (grid0.coords (lastStep i)) 2
      rw [i2, x2]; omega

/-- The lines after the kernel: lane 0 of row 0 plus lane 0 of row 1. -/
theorem tail_value (c : Dev nD) :
    Pipeline.afterTail₀ cfgs (dats m) 0 (V0 m) [hostOps1] c main_v8
      = fun _ => Cert.LossSpec.kval (argX m c) (argL m c) := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.devRef .tc main_v2)
      = partials m c from (Pipeline.withArrays_arr spec0 launch0.win.arr_inj c _ _ 2).trans (final_out m c)]
  funext j
  show shapeCast S1 (addf (F := Ideal) (φ := .f32) (shapeCast S_ (extractStridedSlice (s := S2x1x96) S1x1x1 (![0, 0, 0] : Fin 3 → Nat) (partials m c : FVec Ideal S2x1x96 .f32) slices_S2x1x96_S1x1x1_0_0_0) shapeCasts_S1x1x1_S_)
      (shapeCast S_ (extractStridedSlice (s := S2x1x96) S1x1x1 (![1, 0, 0] : Fin 3 → Nat) (partials m c : FVec Ideal S2x1x96 .f32) slices_S2x1x96_S1x1x1_1_0_0) shapeCasts_S1x1x1_S_)) shapeCasts_S_S1 j = _
  have one_pos (s t : Shape) (hs : s.numel = 1) (ht : t.numel = 1) (a : s.Idx) (b : t.Idx) : (s.rowMajor a).val = (t.rowMajor b).val := by
    have := (s.rowMajor a).isLt; have := (t.rowMajor b).isLt; omega
  refine (shapeCast_apply _ shapeCasts_S_S1 j ix0 (one_pos _ _ (by decide) (by decide) _ _)).trans ?_
  show shapeCast S_ _ shapeCasts_S1x1x1_S_ ix0 + shapeCast S_ _ shapeCasts_S1x1x1_S_ ix0 = _
  rw [shapeCast_apply _ shapeCasts_S1x1x1_S_ ix0 (ix3 0 0 0) (one_pos _ _ (by decide) (by decide) _ _),
    shapeCast_apply _ shapeCasts_S1x1x1_S_ ix0 (ix3 0 0 0) (one_pos _ _ (by decide) (by decide) _ _)]
  rw [extractStridedSlice_apply (s := S2x1x96) (t := S1x1x1) (![0, 0, 0] : Fin 3 → Nat) (partials m c : FVec Ideal S2x1x96 .f32) slices_S2x1x96_S1x1x1_0_0_0 (ix3 0 0 0) (ix3 0 0 0)
      (fun a => by match a with | ⟨0, _⟩ => rfl | ⟨1, _⟩ => rfl | ⟨2, _⟩ => rfl),
    extractStridedSlice_apply (s := S2x1x96) (t := S1x1x1) (![1, 0, 0] : Fin 3 → Nat) (partials m c : FVec Ideal S2x1x96 .f32) slices_S2x1x96_S1x1x1_1_0_0 (ix3 0 0 0) (ix3 1 0 0)
      (fun a => by match a with | ⟨0, _⟩ => rfl | ⟨1, _⟩ => rfl | ⟨2, _⟩ => rfl)]
  rfl

/-- The kernel's run, read: its result array holds `kval` of the argument arrays, which end unchanged. -/
theorem run : θ_run defs (onTc (τ := τ) (main (F := Ideal))) ⟨m, fun _ => 0, ρ⟩ fun r => ∀ c : Dev nD,
      r.2.mem ((c.tc : Thread nD τ).loc main_v8) = (fun _ => Cert.LossSpec.kval (argX m c) (argL m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue
end
-- ==== Proof.lean ====
/-
  A per-(batch, channel) normalised squared-error loss over two arrays X (input) and L (label) of shape
  16 x 4 x 96 x 96 x 96, computed two ways, and the proof that the two agree over the extended reals whenever every
  entry of X and L is finite.

  For channel n = 4 b + ch write SSQ n for the sum of (X - L)^2 and SAB n for the sum of |L| over the channel's 96^3
  positions. The reference divides each by N = 96^3, forms (SSQ/N) / (4 (SAB/N)) per channel, sums the 64 channels
  and divides by 16. The kernel never forms the means: on a 2 x 16 grid, each step takes two channels of the row-major
  64 x 9216 x 96 view, sums rows then lanes, adds SSQ/SAB of both channels to an accumulator that is reset at a core's
  first step, and at the core's last step stores the accumulator times 1/64; the two cores' results are added outside.

  The proof has four parts, each in its own module:
    the specification of both values as sums over the arrays, and the law joining them: for SAB n != 0 the mean
      normalisers cancel by field arithmetic; for SAB n = 0 both quotients are the same infinity (or the bottom
      element at 0/0), which positive real factors fix; and a positive real factor distributes over any finite sum of
      extended reals, so 1/4 inside and 1/16 outside the reference's sum are 1/64 per core on the kernel's;
    the kernel's value, read off its run: what each control case of the body leaves, the body's arithmetic at an
      index, which entries of the arrays a step's blocks hold, the accumulator by induction over the grid, the output
      array from its two write-backs, and the two lines after the kernel;
    the reference's value, read off its run stage by stage, its two sums over the spatial axes re-indexed onto the
      kernel's rows and lanes by a bijection;
    finiteness of every entry from the precondition.
  The three runs themselves (termination, no fault, arguments unchanged) are the generated frames.
-/
import proofs.«180223_g78099685310900_feedfinal_268_6_alg».proof.Defs
import proofs.«180223_g78099685310900_feedfinal_268_6_alg».proof.Proof.Gen.Kernel
import proofs.«180223_g78099685310900_feedfinal_268_6_alg».proof.Proof.Gen.Kernel.Skeleton
import proofs.«180223_g78099685310900_feedfinal_268_6_alg».proof.Proof.Gen.Kernel.Launch
import proofs.«180223_g78099685310900_feedfinal_268_6_alg».proof.Proof.Gen.Kernel.Points
import proofs.«180223_g78099685310900_feedfinal_268_6_alg».proof.Proof.Gen.Kernel.Frame
import proofs.«180223_g78099685310900_feedfinal_268_6_alg».proof.Proof.Gen.KernelIdeal
import proofs.«180223_g78099685310900_feedfinal_268_6_alg».proof.Proof.Gen.KernelIdeal.Skeleton
import proofs.«180223_g78099685310900_feedfinal_268_6_alg».proof.Proof.Gen.KernelIdeal.Launch
import proofs.«180223_g78099685310900_feedfinal_268_6_alg».proof.Proof.Gen.KernelIdeal.Points
import proofs.«180223_g78099685310900_feedfinal_268_6_alg».proof.Proof.Gen.KernelIdeal.Frame
import proofs.«180223_g78099685310900_feedfinal_268_6_alg».proof.Proof.Gen.ReferenceIdeal
import proofs.«180223_g78099685310900_feedfinal_268_6_alg».proof.Proof.Gen.ReferenceIdeal.Run
import proofs.«180223_g78099685310900_feedfinal_268_6_alg».proof.Proof.Gen.ReferenceIdeal.Read
import proofs.«180223_g78099685310900_feedfinal_268_6_alg».proof.Proof.Gen.Pre_finite_inputs
import proofs.«180223_g78099685310900_feedfinal_268_6_alg».proof.Proof.Algebra
import proofs.«180223_g78099685310900_feedfinal_268_6_alg».proof.Proof.Finite
import proofs.«180223_g78099685310900_feedfinal_268_6_alg».proof.Proof.RefValue
import proofs.«180223_g78099685310900_feedfinal_268_6_alg».proof.Proof.KFinal
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programs end with the same extended real in their one result entry: the kernel's run leaves `kval`, the
    reference's `rval` of arrays that agree, and on finite entries these are equal. -/
theorem algebraic : Cert.algebraic_KernelIdeal_ReferenceIdeal := by
  intro m ρ m' ρ' hpre hagree
  refine ⟨fun c => fun _ => Cert.LossSpec.kval (Cert.KernelIdeal.KValue.argX m c) (Cert.KernelIdeal.KValue.argL m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hL⟩ := Cert.FiniteInputs.real_of_pre _ _ (hpre c)
  rw [Cert.ReferenceIdeal.Read.val_main_v14_eq, Cert.ReferenceIdeal.RefValue.result_eq, (hagree c).1, (hagree c).2]
  funext _
  exact (Cert.LossSpec.kval_eq_rval _ _ hX hL).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
